-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S_ : Shape := ⟨0, ![]⟩
abbrev S1x4096 : Shape := ⟨2, ![1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S1x4096, .f32⟩
  | .hbm, ⟨11, _⟩ => ⟨S8192x4096, .f32⟩
  | .hbm, ⟨12, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.RowScale.lean ====
/-
  Scaling the columns of a matrix by a clipped weight vector: the ONE whole-array function both programs compute.

  For a matrix `x` of 8192 rows and 4096 columns and a weight vector `w` of length 4096 the result at row `r`,
  column `k` is
      x r k · min(1, max(0, w k)),
  the weight clipped to the interval [0, 1] and then multiplied in, the same clipped weight down each column.
  Nothing here depends on what a float is: the product, the minimum and the maximum are the float interface's own
  operations and the two bounds are kept as their f32 words, so the function is stated once for every reading of
  the floats. The weight vector also appears laid out as a matrix of ONE row (the form in which a row block of
  weights is held); re-laying a vector as one row moves entry `k` to position `(0, k)` and changes no value.
-/
import Idealize.ShloMosaic.Lib.ValueIdx
import Idealize.ShloMosaic.Lib.Pipeline.Value

noncomputable section

namespace Cert.RowScale

open Idealize.ShloMosaic Idealize.ShloMosaic.ValueIdx

variable {F : FTy → Type} [FloatOps F]

/-- The matrix's shape, the weight vector's, and the weight vector's laid out as one row. -/
abbrev Mat : Shape := ⟨2, ![8192, 4096]⟩
abbrev Wts : Shape := ⟨1, ![4096]⟩
abbrev WRow : Shape := ⟨2, ![1, 4096]⟩

/-- A weight clipped to [0, 1]: `min(1, max(0, v))`, the bounds `1.0` and `0.0` as their f32 words. -/
def clip01 (v : F .f32) : F .f32 :=
  FloatOps.minimumf (FloatOps.ofBits .f32 0x3F800000#32) (FloatOps.maximumf (FloatOps.ofBits .f32 0x00000000#32) v)

/-- The column of a matrix index, as a number below 4096. -/
abbrev colOf (i : Mat.Idx) : Fin 4096 := ⟨(i 1).val, idx2_lt1 i⟩

/-- THE RESULT: entry `(r, k)` of `x` times the clipped `k`-th weight. -/
def scaled (x : Mat.Idx → Elt F .f32) (w : Wts.Idx → Elt F .f32) : Mat.Idx → Elt F .f32 :=
  fun i => FloatOps.mulf (x i) (clip01 (w (ix1 (colOf i))))

/-- The same function with the weights given as a matrix of one row: column `k`'s weight sits at `(0, k)`. -/
def scaledByRow (x : Mat.Idx → Elt F .f32) (w2 : WRow.Idx → Elt F .f32) : Mat.Idx → Elt F .f32 :=
  fun i => FloatOps.mulf (x i) (clip01 (w2 (ix2 (0 : Fin 1) (colOf i))))

/-- Laying the weight vector out as one row keeps entry `k` at `(0, k)`: both sit at position `k` of the
    row-major order, `0 · 4096 + k = k`. -/
theorem shapeCast_row (w : Wts.Idx → Elt F .f32) (h : Wts.ShapeCasts WRow) (k : Fin 4096) :
    shapeCast WRow w h (ix2 (0 : Fin 1) k) = w (ix1 k) :=
  shapeCast_apply w h (ix2 (0 : Fin 1) k) (ix1 k) (by
    rw [Shape.rowMajor_val_one, Shape.rowMajor_val_two]
    show k.val = 0 * 4096 + k.val
    omega)

/-- So scaling by the one-row layout of `w` is scaling by `w`. -/
theorem scaledByRow_shapeCast (x : Mat.Idx → Elt F .f32) (w : Wts.Idx → Elt F .f32) (h : Wts.ShapeCasts WRow) :
    scaledByRow x (shapeCast WRow w h) = scaled x w := by
  funext i
  unfold scaledByRow scaled
  rw [shapeCast_row]

end Cert.RowScale

end
-- ==== Proof.ReferenceScale.lean ====
/-
  The reference computes the scaled matrix.

  Its program clips the weight vector once, entry by entry — the bound `0.0` spread over the 4096 entries and
  taken as a maximum with the weights, the bound `1.0` spread likewise and taken as a minimum with that —, lays
  the clipped vector out as one row, repeats the row down the 8192 rows and multiplies the matrix by it entry by
  entry. Read at a matrix index `(r, k)` each layout step only moves the index: the repeated row is read at
  `(0, k)`, the one-row layout at `k`, a spread scalar at the scalar's one index. What is left at `(r, k)` is
  `x r k · min(1, max(0, w k))`, which is the specification's entry, with the same two words for the bounds.
-/
import proofs.«421908_j1640677507626_3_alg».proof.Proof.Gen.ReferenceIdeal.Read
import proofs.«421908_j1640677507626_3_alg».proof.Proof.RowScale

noncomputable section

namespace Cert.ReferenceIdeal.Scale

open Cert.ReferenceIdeal Cert.ReferenceIdeal.Read Idealize.ShloMosaic Idealize.ShloMosaic.ValueIdx Cert.RowScale

variable {F : FTy → Type} [FloatOps F]

/-- Through the two repeats (down the rows, then from the vector to one row) matrix index `(r, k)` reads the
    clipped vector at `k`. -/
theorem idx_col (i : S8192x4096.Idx) : idx_main_v1 (idx_main_v2 i) = ix1 (colOf i) :=
  funext fun a => Fin.ext (by match a with | ⟨0, _⟩ => rfl)

/-- The reference's last stage, as a function of the two argument arrays, is the specification. -/
theorem result_eq (x : (⟨S8192x4096, .f32⟩ : BufTy).Contents (Elt F)) (w : (⟨S4096, .f32⟩ : BufTy).Contents (Elt F)) :
    val_main_v3 (F := F) x w = scaled x w := by
  funext i
  rw [val_main_v3_apply, val_main_v2_apply, val_main_v1_apply, val_main_v0_apply, val_main_call0_v4_apply,
    val_main_call0_v3_apply, val_main_cst_0_apply, val_main_call0_v2_apply, val_main_call0_v1_apply,
    val_main_call0_v0_apply, val_main_cst_apply, idx_col]
  rfl

end Cert.ReferenceIdeal.Scale

end
-- ==== Proof.KernelBlock.lean ====
/-
  What one grid point of the kernel leaves in its output block.

  At a grid point the kernel holds a block of 512 whole rows of the matrix and the whole weight vector as one row
  of 4096. It clips the row of weights (`max` with `0.0`, then `min` with `1.0`), repeats the clipped row down
  the 512 rows and multiplies the block by it, and stores the product over the whole output block. So entry
  `(p, k)` of the output block is `block p k · min(1, max(0, row 0 k))`: the block's own entry times the clipped
  weight of its column — the specification's formula with the block's row `p` in place of the matrix row.
-/
import proofs.«421908_j1640677507626_3_alg».proof.Proof.Gen.KernelIdeal.Value
import proofs.«421908_j1640677507626_3_alg».proof.Proof.RowScale

noncomputable section

namespace Cert.KernelIdeal.Scale

open Cert.KernelIdeal Cert.KernelIdeal.Gen Idealize.ShloMosaic Idealize.ShloMosaic.ValueIdx Cert.RowScale

variable {F : FTy → Type} [FloatOps F]

/-- The body's loads start at the corner of their buffers. -/
theorem corner : (![0, 0] : Fin 2 → Nat) = fun _ => 0 := funext fun a => by fin_cases a <;> rfl

/-- THE OUTPUT BLOCK, entry by entry: the matrix block's entry times the clipped weight of its column, the
    weights read from the one row at `(0, k)`. Both loads are of whole buffers from the corner, so they are the
    buffers' contents, and the body's one store covers the block. -/
theorem block_entry (xb : Vec F S512x4096 .f32) (wr : Vec F S1x4096 .f32) (y : S512x4096.Idx) :
    out0_2 xb wr y = FloatOps.mulf (xb y) (clip01 (wr (ix2 (0 : Fin 1) (⟨(y 1).val, idx2_lt1 y⟩ : Fin 4096)))) := by
  unfold out0_2
  rw [Value.canon2_eq]
  simp only [View.ld_unit_zero (S := S512x4096) corner, View.ld_unit_zero (S := S1x4096) corner]
  have e0 : Value.ix2_0 y = y := funext fun a => Fin.ext (by match a with | ⟨0, _⟩ => rfl | ⟨1, _⟩ => rfl)
  have e1 : Value.ix2_1 y = ix2 (0 : Fin 1) (⟨(y 1).val, idx2_lt1 y⟩ : Fin 4096) :=
    funext fun a => Fin.ext (by match a with | ⟨0, _⟩ => rfl | ⟨1, _⟩ => rfl)
  show FloatOps.mulf (xb (Value.ix2_0 y)) (clip01 (wr (Value.ix2_1 y))) = _
  rw [e0, e1]

end Cert.KernelIdeal.Scale

end
-- ==== Proof.KernelArray.lean ====
/-
  From the kernel's sixteen output blocks to its whole result array.

  The grid has 2 × 8 = 16 points; point number `t` (in the order the grid is walked) takes row block `t` of the
  matrix — rows `512·t` to `512·t + 511`, all 4096 columns — both to read and to write, and every point takes
  the same, whole, one-row layout of the weight vector, which the program makes from the weight vector before the
  grid starts. So element `(p, k)` of point `t`'s blocks is element `(512·t + p, k)` of the matrix, and the
  one row is the weight vector with entry `k` at `(0, k)`. With the per-point formula this says that what
  point `t` writes back is block `t` of the scaled matrix. The sixteen blocks tile the 8192 rows — row `r` is in
  block `r / 512` — so after the run the whole result array is the scaled matrix.
-/
import proofs.«421908_j1640677507626_3_alg».proof.Proof.Gen.KernelIdeal.Value
import proofs.«421908_j1640677507626_3_alg».proof.Proof.KernelBlock
import Idealize.ShloMosaic.Lib.StableHlo.Run

noncomputable section

namespace Cert.KernelIdeal.Scale

open Cert.KernelIdeal Cert.KernelIdeal.Gen Idealize.ShloMosaic Idealize.ShloMosaic.TcCoe Idealize.SL.Sem
open Idealize.ShloMosaic.ValueIdx Idealize.ShloMosaic.StableHlo Cert.RowScale
open Idealize.ShloMosaic.Pipeline (Dat)

variable {F : FTy → Type} [FloatOps F]
variable (m : (ℓ : Loc nD τ sig) → Buf (Elt F) ℓ) (ρ : Dev nD → PrngReg)

/-- The one-row weights the grid reads are the weight vector as launched, re-laid as one row: the program's only
    step before the grid. -/
theorem weights_row (c : Dev nD) :
    (V m c main_v0 : S1x4096.Idx → Elt F .f32)
      = shapeCast S1x4096 (m ((c : Thread nD τ).loc main_arg1)) shapeCasts_S4096_S1x4096 := by
  dsimp only [V, hostOps0]
  after_results
  rfl

/-- The grid's index maps, decided over its sixteen points: point `t` reads and writes row block `t` (all
    columns), and reads the weights' one block. -/
theorem block_of_point : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- WHAT POINT `t` WRITES BACK is block `t` of the matrix scaled by the one-row weights: the point's matrix
    block and its output block sit over the same rows, and its weights block is the whole row. -/
theorem flushed_eq (c : Dev nD) (t : Fin cfg0.N) :
    (dats m 0 c).flushed 2 t
      = ((cfg0.win 2).blk t).view.read (Elt F) (scaledByRow (V m c main_arg0) (V m c main_v0)) := by
  rw [Value.flushed2]
  obtain ⟨e0, e1, e2, e3, e4, e5⟩ := block_of_point t
  funext j
  show out0_2 (iblk m c 0 t) (iblk m c 1 t) j
    = scaledByRow (V m c main_arg0) (V m c main_v0) (((cfg0.win 2).blk t).view.emb j)
  refine (block_entry (iblk m c 0 t) (iblk m c 1 t) j).trans ?_
  have hj0 : (j 0).val < 512 := (j 0).isLt
  have hj1 : (j 1).val < 4096 := (j 1).isLt
  show FloatOps.mulf (V m c main_arg0 (((cfg0.win 0).blk t).view.emb j))
      (clip01 (V m c main_v0 (((cfg0.win 1).blk t).view.emb (ix2 (0 : Fin 1) (⟨(j 1).val, hj1⟩ : Fin 4096)))))
    = FloatOps.mulf (V m c main_arg0 (((cfg0.win 2).blk t).view.emb j))
      (clip01 (V m c main_v0 (ix2 (0 : Fin 1) (colOf (((cfg0.win 2).blk t).view.emb j)))))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (ix2 (0 : Fin 1) (⟨(j 1).val, hj1⟩ : Fin 4096))
      = ix2 (0 : Fin 1) (colOf (((cfg0.win 2).blk t).view.emb j)) := by
    funext a; apply Fin.ext
    match a with
    | ⟨0, _⟩ => show win0_1.index t (0 : Fin 2) * 1 + 1 * 0 = 0; omega
    | ⟨1, _⟩ => show win0_1.index t (1 : Fin 2) * 4096 + 1 * (j 1).val = win0_2.index t (1 : Fin 2) * 4096 + 1 * (j 1).val; omega
  rw [h0, h1]

/-- An index of the result array is in point `t`'s block iff each coordinate is in the block's range on its axis. -/
theorem mem_block (t : Fin cfg0.N) (i : S8192x4096.Idx) :
    i ∈ ((cfg0.win 2).blk t).view.set
      ↔ ∀ a : Fin 2, win0_2.index t a * S512x4096.size a ≤ (i a).val
          ∧ (i a).val < win0_2.index t a * S512x4096.size a + S512x4096.size a := by
  show i ∈ ((View.whole main_v1).slice (win0_2.rect t)).set ↔ _
  rw [View.set_slice_whole, Rect.mem_set_unit]
  exact Iff.rfl

/-- THE BLOCKS TILE THE ARRAY: row `r` lies in the block of point `r / 512`, and every block has all the columns. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hq : (i 0).val / 512 < cfg0.N := by show (i 0).val / 512 < 16; omega
  obtain ⟨e0, e1, -⟩ := block_of_point ⟨(i 0).val / 512, hq⟩
  have e0' : win0_2.index ⟨(i 0).val / 512, hq⟩ (0 : Fin 2) = (i 0).val / 512 := e0
  refine ⟨⟨(i 0).val / 512, hq⟩, flush0_2 _, ?_⟩
  rw [mem_block]
  intro a
  match a with
  | ⟨0, _⟩ =>
    show win0_2.index ⟨(i 0).val / 512, hq⟩ (0 : Fin 2) * 512 ≤ (i 0).val
      ∧ (i 0).val < win0_2.index ⟨(i 0).val / 512, hq⟩ (0 : Fin 2) * 512 + 512
    omega
  | ⟨1, _⟩ =>
    show win0_2.index ⟨(i 0).val / 512, hq⟩ (1 : Fin 2) * 4096 ≤ (i 1).val
      ∧ (i 1).val < win0_2.index ⟨(i 0).val / 512, hq⟩ (1 : Fin 2) * 4096 + 4096
    omega

/-- THE RESULT ARRAY after the run is the matrix as launched scaled by the weight vector as launched. -/
theorem final (c : Dev nD) :
    (dats m 0 c).arrAt 2 cfg0.N
      = scaled (m ((c : Thread nD τ).loc main_arg0)) (m ((c : Thread nD τ).loc main_arg1)) := by
  rw [(dats m 0 c).arrAt_eq_of_cover 2 (scaledByRow (V m c main_arg0) (V m c main_v0))
    (fun t _ => flushed_eq m c t) covered]
  rw [weights_row, V_main_arg0, scaledByRow_shapeCast]

/-- THE KERNEL'S RUN: every weakly fair execution ends with the result array at the scaled matrix and the two
    arguments as launched. -/
theorem run : θ_run defs (onTc (τ := τ) (main (F := F))) ⟨m, fun _ => 0, ρ⟩ fun r => ∀ c : Dev nD,
      r.2.mem ((c : Thread nD τ).loc main_v1)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Scale

end
-- ==== Proof.lean ====
/-
  A kernel that scales the columns of a matrix by a clipped weight vector computes what its reference computes.

  The matrix `x` has 8192 rows and 4096 columns, the weight vector `w` has length 4096, and both programs end with
      result r k = x r k · min(1, max(0, w k))
  at every row `r` and column `k` (Proof/RowScale.lean states this function once, for every reading of the floats).

  The reference clips the vector, repeats it down the rows and multiplies (Proof/ReferenceScale.lean reads its
  last stage at an index). The kernel walks sixteen blocks of 512 rows; at each it clips the same row of weights,
  repeats it down the block and multiplies (Proof/KernelBlock.lean: one block, entry by entry); the blocks tile
  the rows, so the whole result array is the scaled matrix (Proof/KernelArray.lean). The two programs apply the
  same three operations — maximum with `0.0`, minimum with `1.0`, product — to the same entries in the same
  order with the same words for the bounds, so no law of arithmetic is used and the inputs' finiteness is never
  opened: the results agree whatever the extended reals `x r k` and `w k` are.

  The three programs run to the end and leave their arguments unchanged; the idealized kernel is the kernel's own
  text read over the extended reals (no rewrite was made, so nothing is owed for it).
-/
import proofs.«421908_j1640677507626_3_alg».proof.Defs
import proofs.«421908_j1640677507626_3_alg».proof.Proof.Gen.Kernel
import proofs.«421908_j1640677507626_3_alg».proof.Proof.Gen.Kernel.Skeleton
import proofs.«421908_j1640677507626_3_alg».proof.Proof.Gen.Kernel.Launch
import proofs.«421908_j1640677507626_3_alg».proof.Proof.Gen.Kernel.Points
import proofs.«421908_j1640677507626_3_alg».proof.Proof.Gen.Kernel.Frame
import proofs.«421908_j1640677507626_3_alg».proof.Proof.Gen.KernelIdeal
import proofs.«421908_j1640677507626_3_alg».proof.Proof.Gen.KernelIdeal.Skeleton
import proofs.«421908_j1640677507626_3_alg».proof.Proof.Gen.KernelIdeal.Launch
import proofs.«421908_j1640677507626_3_alg».proof.Proof.Gen.KernelIdeal.Points
import proofs.«421908_j1640677507626_3_alg».proof.Proof.Gen.KernelIdeal.Frame
import proofs.«421908_j1640677507626_3_alg».proof.Proof.Gen.ReferenceIdeal
import proofs.«421908_j1640677507626_3_alg».proof.Proof.Gen.Pre_finite_inputs
import proofs.«421908_j1640677507626_3_alg».proof.Proof.Gen.KernelIdeal.Value
import proofs.«421908_j1640677507626_3_alg».proof.Proof.Gen.ReferenceIdeal.Run
import proofs.«421908_j1640677507626_3_alg».proof.Proof.Gen.ReferenceIdeal.Read
import proofs.«421908_j1640677507626_3_alg».proof.Proof.RowScale
import proofs.«421908_j1640677507626_3_alg».proof.Proof.ReferenceScale
import proofs.«421908_j1640677507626_3_alg».proof.Proof.KernelArray
import Idealize.ShloMosaic.Adequacy
import Idealize.ShloMosaic.Init

noncomputable section

namespace Cert.Proof

open Idealize.ShloMosaic Idealize.ShloMosaic.TcCoe Idealize.SL.Sem

/-- The kernel, over words, runs to the end with its arguments unchanged. -/
theorem frame_kernel [Cert.Kernel.Facts] [Cert.Pre_finite_inputs.Facts] : Cert.frame_Kernel :=
  fun m ρ _ => Cert.Kernel.Gen.frame m ρ

/-- So does the kernel over the extended reals. -/
theorem frame_kernelIdeal [Cert.KernelIdeal.Facts] [Cert.Pre_finite_inputs.Facts] : Cert.frame_KernelIdeal :=
  fun m ρ _ => Cert.KernelIdeal.Gen.frame m ρ

/-- The reference has no kernel: its run, with the result forgotten, is its frame. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From arguments that agree, both programs end with the scaled matrix of the kernel's arguments: the kernel by its
    blocks, the reference by its last stage read at an index, the reference's arguments rewritten to the kernel's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.RowScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Scale.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
